-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x4 : Shape := ⟨2, ![2048, 4]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x4096x2048 .f32) (main_arg1 : FVec F S2048x4 .f32) (main_arg2 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x4096x2048 : Shape := ⟨3, ![4, 4096, 2048]⟩
abbrev S2048x4 : Shape := ⟨2, ![2048, 4]⟩
abbrev S2048 : Shape := ⟨1, ![2048]⟩
abbrev S4x2048 : Shape := ⟨2, ![4, 2048]⟩
abbrev S1x512x2048 : Shape := ⟨3, ![1, 512, 2048]⟩
abbrev S8x2048 : Shape := ⟨2, ![8, 2048]⟩
abbrev S520x2048 : Shape := ⟨2, ![520, 2048]⟩
abbrev S512x2048 : Shape := ⟨2, ![512, 2048]⟩
abbrev S1x2048 : Shape := ⟨2, ![1, 2048]⟩
abbrev S1x8x2048 : Shape := ⟨3, ![1, 8, 2048]⟩

abbrev nBuf : Space → Nat
  | .hbm => 5
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S2048, .f32⟩
  | .hbm, ⟨3, _⟩ => ⟨S4x2048, .f32⟩
  | .hbm, ⟨4, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S4x2048, .f32⟩
  | .local _ .vmem, ⟨3, _⟩ => ⟨S2048, .f32⟩
  | .local _ .vmem, ⟨4, _⟩ => ⟨S1x512x2048, .f32⟩
  | .local _ .vmem, ⟨5, _⟩ => ⟨S1x512x2048, .f32⟩
  | .local _ .vmem, ⟨6, _⟩ => ⟨S8x2048, .f32⟩
  | .local _ .vmem, ⟨7, _⟩ => ⟨S520x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S2048x4_S4x2048_1_0 : S2048x4.Transposes [1, 0] S4x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S520x2048_S8x2048_0_0 : ∀ a, (![0, 0] : Fin 2 → Nat) a + S8x2048.size a ≤ S520x2048.size a
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S520x2048_S512x2048_8_0 : ∀ a, (![8, 0] : Fin 2 → Nat) a + S512x2048.size a ≤ S520x2048.size a
  h_S512x2048 : 0 < S512x2048.numel
  shapeCasts_S512x2048_S512x2048 : S512x2048.ShapeCasts S512x2048
  inb_S520x2048_S520x2048_0_0 : ∀ a, (![0, 0] : Fin 2 → Nat) a + S520x2048.size a ≤ S520x2048.size a
  h_S520x2048 : 0 < S520x2048.numel
  slices_S520x2048_o5_0_S512x2048 : S520x2048.Slices ![5, 0] S512x2048
  inb_S4x2048_S1x2048_0_0 : ∀ a, (![0, 0] : Fin 2 → Nat) a + S1x2048.size a ≤ S4x2048.size a
  h_S1x2048 : 0 < S1x2048.numel
  shapeCasts_S1x2048_S2048 : S1x2048.ShapeCasts S2048
  shapeCasts_S2048_S1x2048 : S2048.ShapeCasts S1x2048
  broadcasts_S1x2048_S512x2048 : S1x2048.Broadcasts S512x2048
  slices_S520x2048_o6_0_S512x2048 : S520x2048.Slices ![6, 0] S512x2048
  inb_S4x2048_S1x2048_1_0 : ∀ a, (![1, 0] : Fin 2 → Nat) a + S1x2048.size a ≤ S4x2048.size a
  slices_S520x2048_o7_0_S512x2048 : S520x2048.Slices ![7, 0] S512x2048
  inb_S4x2048_S1x2048_2_0 : ∀ a, (![2, 0] : Fin 2 → Nat) a + S1x2048.size a ≤ S4x2048.size a
  slices_S520x2048_o8_0_S512x2048 : S520x2048.Slices ![8, 0] S512x2048
  inb_S4x2048_S1x2048_3_0 : ∀ a, (![3, 0] : Fin 2 → Nat) a + S1x2048.size a ≤ S4x2048.size a
  inb_S2048_S2048_0 : ∀ a, (![0] : Fin 1 → Nat) a + S2048.size a ≤ S2048.size a
  h_S2048 : 0 < S2048.numel
  shapeCasts_S512x2048_S1x512x2048 : S512x2048.ShapeCasts S1x512x2048
  inb_S1x512x2048_S1x8x2048_0_504_0 : ∀ a, (![0, 504, 0] : Fin 3 → Nat) a + S1x8x2048.size a ≤ S1x512x2048.size a
  h_S1x8x2048 : 0 < S1x8x2048.numel
  shapeCasts_S1x8x2048_S8x2048 : S1x8x2048.ShapeCasts S8x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2048.size a ≤ S4x2048.size a
  hwx0_1 : ∀ i : grid0.Coords, EltTy.bits .f32 = 32 ∨ (Rect.block (s := S4x2048) S4x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S4x4096x2048.size a
  hwx0_3 : ∀ i : grid0.Coords, EltTy.bits .f32 = 32 ∨ (Rect.block (s := S4x4096x2048) S1x512x2048.size (cc0_transform_3 i) (hinb0_3 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x4 : Shape := ⟨2, ![2048, 4]⟩
abbrev S2048 : Shape := ⟨1, ![2048]⟩
abbrev S_ : Shape := ⟨0, ![]⟩
abbrev S4x4099x2048 : Shape := ⟨3, ![4, 4099, 2048]⟩
abbrev S2048x1 : Shape := ⟨2, ![2048, 1]⟩
abbrev S1x1x2048 : Shape := ⟨3, ![1, 1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S2048, .f32⟩
  | .hbm, ⟨3, _⟩ => ⟨S_, .i32⟩
  | .hbm, ⟨4, _⟩ => ⟨S_, .f32⟩
  | .hbm, ⟨5, _⟩ => ⟨S4x4099x2048, .f32⟩
  | .hbm, ⟨6, _⟩ => ⟨S4x4096x2048, .f32⟩
  | .hbm, ⟨7, _⟩ => ⟨S2048x1, .f32⟩
  | .hbm, ⟨8, _⟩ => ⟨S2048, .f32⟩
  | .hbm, ⟨9, _⟩ => ⟨S1x1x2048, .f32⟩
  | .hbm, ⟨10, _⟩ => ⟨S4x4096x2048, .f32⟩
  | .hbm, ⟨11, _⟩ => ⟨S4x4096x2048, .f32⟩
  | .hbm, ⟨12, _⟩ => ⟨S1x1x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S2048x1, .f32⟩
  | .hbm, ⟨17, _⟩ => ⟨S2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S2048x1, .f32⟩
  | .hbm, ⟨24, _⟩ => ⟨S2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S2048x1, .f32⟩
  | .hbm, ⟨31, _⟩ => ⟨S2048, .f32⟩
  | .hbm, ⟨32, _⟩ => ⟨S1x1x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S_, .f32⟩
  | .hbm, ⟨39, _⟩ => ⟨S4x4096x2048, .f32⟩
  | .hbm, ⟨40, _⟩ => ⟨S4x4096x2048, .f32⟩
  | .hbm, ⟨41, _⟩ => ⟨S_, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  pads_S4x4096x2048_S4x4099x2048_000_300_000 : S4x4096x2048.Pads (![0, 3, 0] : Fin 3 → Nat) ![0, 0, 0] ![0, 0, 0] S4x4099x2048
  h_S_ : 0 < S_.numel
  slices_S4x4099x2048_S4x4096x2048_0_0_0 : S4x4099x2048.Slices ![0, 0, 0] S4x4096x2048
  slices_S2048x4_S2048x1_0_0 : S2048x4.Slices ![0, 0] S2048x1
  shapeCasts_S2048x1_S2048 : S2048x1.ShapeCasts S2048
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  slices_S4x4099x2048_S4x4096x2048_0_1_0 : S4x4099x2048.Slices ![0, 1, 0] S4x4096x2048
  slices_S2048x4_S2048x1_0_1 : S2048x4.Slices ![0, 1] S2048x1
  slices_S4x4099x2048_S4x4096x2048_0_2_0 : S4x4099x2048.Slices ![0, 2, 0] S4x4096x2048
  slices_S2048x4_S2048x1_0_2 : S2048x4.Slices ![0, 2] S2048x1
  slices_S4x4099x2048_S4x4096x2048_0_3_0 : S4x4099x2048.Slices ![0, 3, 0] S4x4096x2048
  slices_S2048x4_S2048x1_0_3 : S2048x4.Slices ![0, 3] S2048x1
  bcast_S_S4x4096x2048 : S_.BroadcastsInDim S4x4096x2048 (![] : Fin 0 → Fin S4x4096x2048.rank)

variable [Facts₀]

class Facts : Prop extends Facts₀ where

variable [Facts]
-- ==== Proof.BlockReads.lean ====
/-
  Where each grid point's blocks sit in the arrays.

  The grid has 4 × 8 points, batch-major: point t works on batch t / 8 and tile t % 8.  Its input block and its
  output block are rows 512 · (t % 8) … 512 · (t % 8) + 511 of that batch; the taps and the bias are staged whole
  at every point.  The taps the kernel stages are the argument's transpose, so row k of what it stages at channel
  q is the argument's entry (q, k).
-/
import proofs.«402709_j62242666053983_3_alg».proof.Proof.Gen.KernelIdeal.Value
import Idealize.ShloMosaic.Lib.ValueIdx
import Idealize.ShloMosaic.Lib.ValueLayout
import Idealize.ShloMosaic.Lib.StableHlo.Run

set_option maxRecDepth 16384

noncomputable section

namespace Cert.CausalConv.Kernel

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The printed index maps, decided once over the 32 points: batch `t / 8`, tile `t % 8` for the input and the
    output; block 0 for the taps and the bias. -/
theorem grid_facts : ∀ t : Fin cfg0.N,
    win0_0.index t (0 : Fin 3) = t.val / 8 ∧ win0_0.index t (1 : Fin 3) = t.val % 8 ∧ win0_0.index t (2 : Fin 3) = 0
    ∧ win0_3.index t (0 : Fin 3) = t.val / 8 ∧ win0_3.index t (1 : Fin 3) = t.val % 8 ∧ win0_3.index t (2 : Fin 3) = 0
    ∧ win0_1.index t (0 : Fin 2) = 0 ∧ win0_1.index t (1 : Fin 2) = 0 ∧ win0_2.index t (0 : Fin 1) = 0 :=
  (by decide +kernel : ∀ t : Fin grid0.N, _)

/-- The input block of point `t` at (0, p, q) is the input array at batch `t / 8`, time `512 · (t % 8) + p`. -/
theorem inputBlock_apply (c : Dev nD) (t : Fin cfg0.N) (p : Fin 512) (q : Fin 2048) (b : Fin 4) (s : Fin 4096)
    (hb : b.val = t.val / 8) (hs : s.val = 512 * (t.val % 8) + p.val) :
    iblk m c 0 t (ix3 (0 : Fin 1) p q) = V m c main_arg0 (ix3 b s q) := by
  obtain ⟨e0, e1, e2, -⟩ := grid_facts t
  show V m c main_arg0 (((cfg0.win 0).blk t).view.emb (ix3 (0 : Fin 1) p q)) = _
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 512 + 1 * p.val = s.val; omega
  | ⟨2, _⟩ => show win0_0.index t (2 : Fin 3) * 2048 + 1 * q.val = q.val; omega

/-- The taps' block at every point is the whole staged array. -/
theorem tapsBlock_apply (c : Dev nD) (t : Fin cfg0.N) (k : Fin 4) (q : Fin 2048) :
    iblk m c 1 t (ix2 k q) = V m c main_v0 (ix2 k q) := by
  obtain ⟨-, -, -, -, -, -, e0, e1, -⟩ := grid_facts t
  show V m c main_v0 (((cfg0.win 1).blk t).view.emb (ix2 k q)) = _
  refine congrArg (V m c main_v0) (funext fun a => Fin.ext ?_)
  match a with
  | ⟨0, _⟩ => show win0_1.index t (0 : Fin 2) * 4 + 1 * k.val = k.val; omega
  | ⟨1, _⟩ => show win0_1.index t (1 : Fin 2) * 2048 + 1 * q.val = q.val; omega

/-- The bias's block at every point is the whole bias. -/
theorem biasBlock_apply (c : Dev nD) (t : Fin cfg0.N) (q : Fin 2048) :
    iblk m c 2 t (ix1 q) = V m c main_arg2 (ix1 q) := by
  obtain ⟨-, -, -, -, -, -, -, -, e0⟩ := grid_facts t
  show V m c main_arg2 (((cfg0.win 2).blk t).view.emb (ix1 q)) = _
  refine congrArg (V m c main_arg2) (funext fun a => Fin.ext ?_)
  match a with
  | ⟨0, _⟩ => show win0_2.index t (0 : Fin 1) * 2048 + 1 * q.val = q.val; omega

/-- The array of taps the kernel stages is the argument's transpose. -/
theorem stagedTaps_eq (c : Dev nD) :
    (V m c main_v0 : S4x2048.Idx → Elt F .f32)
      = transpose S4x2048 [1, 0] (m ((c : Thread nD τ).loc main_arg1)) transposes_S2048x4_S4x2048_1_0 := by
  dsimp only [Gen.V, Gen.hostOps0]; after_results

/-- Row `k` of the staged taps at channel `q` is the argument's entry (q, k). -/
theorem stagedTaps_apply (c : Dev nD) (k : Fin 4) (q : Fin 2048) :
    V m c main_v0 (ix2 k q) = m ((c : Thread nD τ).loc main_arg1) (ix2 q k) := by
  rw [stagedTaps_eq m c]
  exact transpose_ix2_apply _ _ k q

end Cert.CausalConv.Kernel

end
-- ==== Proof.WindowRows.lean ====
/-
  The kernel's 520-row window read back, row by row.

  At every grid point the body writes the eight carried rows into rows 0-7 of a 520-row scratch window and the
  point's 512-row tile into rows 8-519, then loads the window whole.  What was written is listed newest first: the
  tile's piece, then the carry's.  So row r of the loaded window is row r - 8 of the tile's payload when r ≥ 8, and
  row r of the carry's payload when r < 8: the two rectangles meet no common row.
-/
import proofs.«402709_j62242666053983_3_alg».proof.Proof.Gen.KernelIdeal.Frame
import Idealize.ShloMosaic.Lib.ValueIdx
import Idealize.ShloMosaic.Lib.Pipeline.FrameBody

noncomputable section

namespace Cert.CausalConv.Kernel

open Cert.KernelIdeal Cert.KernelIdeal.Gen Idealize.ShloMosaic Idealize.ShloMosaic.TcCoe Idealize.ShloMosaic.ValueIdx

variable {F : FTy → Type} [FloatOps F]

/-- The rectangle of the tile's rows in the window: rows 8-519. -/
abbrev tileRect : Rect S520x2048 := Rect.unit ![8, 0] S512x2048.size inb_S520x2048_S512x2048_8_0
/-- The rectangle of the carried rows in the window: rows 0-7. -/
abbrev carryRect : Rect S520x2048 := Rect.unit ![0, 0] S8x2048.size inb_S520x2048_S8x2048_0_0
/-- The whole window. -/
abbrev windowRect : Rect S520x2048 := Rect.unit ![0, 0] S520x2048.size inb_S520x2048_S520x2048_0_0

/-- The window's two pieces, newest first: the tile, then the carry. -/
abbrev windowPieces (tileP : S512x2048.Idx → Elt F .f32) (carryP : S8x2048.Idx → Elt F .f32) :
    List (View.Piece (Elt F) S520x2048 .f32) :=
  [⟨tileRect, tileP⟩, ⟨carryRect, carryP⟩]

/-- A load of the whole window reads each index at itself. -/
theorem windowRect_idx (r : Fin 520) (q : Fin 2048) : windowRect.toLoadRect.idx (ix2 r q) = ix2 r q := by
  funext a; apply Fin.ext
  match a with
  | ⟨0, _⟩ => show 0 + 1 * r.val = r.val; omega
  | ⟨1, _⟩ => show 0 + 1 * q.val = q.val; omega

/-- Row `8 + p` of the window is row `p` of the tile's rectangle. -/
theorem tileRect_emb (r : Fin 520) (q : Fin 2048) (p : Fin 512) (hr : r.val = 8 + p.val) :
    ix2 r q = tileRect.emb (ix2 p q) := by
  funext a; apply Fin.ext
  match a with
  | ⟨0, _⟩ => show r.val = 8 + 1 * p.val; omega
  | ⟨1, _⟩ => show q.val = 0 + 1 * q.val; omega

/-- Row `p < 8` of the window is row `p` of the carry's rectangle. -/
theorem carryRect_emb (r : Fin 520) (q : Fin 2048) (p : Fin 8) (hr : r.val = p.val) :
    ix2 r q = carryRect.emb (ix2 p q) := by
  funext a; apply Fin.ext
  match a with
  | ⟨0, _⟩ => show r.val = 0 + 1 * p.val; omega
  | ⟨1, _⟩ => show q.val = 0 + 1 * q.val; omega

/-- A row below 8 is not one of the tile's rows. -/
theorem not_mem_tileRect (r : Fin 520) (q : Fin 2048) (hr : r.val < 8) : ix2 r q ∉ tileRect.set := by
  rw [Rect.mem_set_unit]
  intro h
  have h0 : (8 : Nat) ≤ r.val := (h 0).1
  omega

/-- From row 8 on, the loaded window is the tile's payload eight rows up. -/
theorem window_tileRow (v : View sig .tc .vmem S520x2048 .f32) (tileP : S512x2048.Idx → Elt F .f32) (carryP : S8x2048.Idx → Elt F .f32)
    (r : Fin 520) (q : Fin 2048) (p : Fin 512) (hr : r.val = 8 + p.val) :
    v.readCov (windowPieces tileP carryP) windowRect.toLoadRect (ix2 r q) = tileP (ix2 p q) := by
  rw [View.readCov_eq_canon']
  show View.canon (windowPieces tileP carryP) (windowRect.toLoadRect.idx (ix2 r q)) = _
  rw [windowRect_idx, tileRect_emb r q p hr]
  exact View.canon_cons_emb tileRect tileP _ (ix2 p q)

/-- Below row 8, the loaded window is the carry's payload. -/
theorem window_carryRow (v : View sig .tc .vmem S520x2048 .f32) (tileP : S512x2048.Idx → Elt F .f32) (carryP : S8x2048.Idx → Elt F .f32)
    (r : Fin 520) (q : Fin 2048) (p : Fin 8) (hr : r.val = p.val) :
    v.readCov (windowPieces tileP carryP) windowRect.toLoadRect (ix2 r q) = carryP (ix2 p q) := by
  rw [View.readCov_eq_canon']
  show View.canon (windowPieces tileP carryP) (windowRect.toLoadRect.idx (ix2 r q)) = _
  rw [windowRect_idx]
  rw [View.canon_cons_of_not_mem (⟨tileRect, tileP⟩ : View.Piece (Elt F) S520x2048 .f32) [⟨carryRect, carryP⟩]
    (not_mem_tileRect r q (by have := p.isLt; omega))]
  rw [carryRect_emb r q p hr]
  exact View.canon_cons_emb carryRect carryP [] (ix2 p q)

end Cert.CausalConv.Kernel

end
-- ==== Proof.CaseTerms.lean ====
/-
  What each of the body's two cases leaves, in terms of the body's arithmetic.

  The body runs in one of two ways: at the first tile of a batch it first resets the carried rows to zero; at
  every other tile it finds in them what the tile before left.  Either way it then copies the carried rows and the
  tile into the window, computes the output tile from the window, the taps and the bias, and last stores the tile's
  final eight rows into the carry.  That last store covers the carry whole, so in both cases the carry ends as the
  tile's rows 504-511; and the two cases' output tiles are one function of (tile, carried rows, taps, bias), taken
  at zero carried rows in the first case.
-/
import proofs.«402709_j62242666053983_3_alg».proof.Proof.Gen.KernelIdeal.Frame
import proofs.«402709_j62242666053983_3_alg».proof.Proof.WindowRows
import Idealize.ShloMosaic.Lib.Pipeline.Value

set_option maxRecDepth 16384

noncomputable section

namespace Cert.CausalConv.Kernel

open Cert.KernelIdeal Cert.KernelIdeal.Gen Idealize.ShloMosaic Idealize.ShloMosaic.TcCoe Idealize.ShloMosaic.Tactic Idealize.SL.Sem

variable {F : FTy → Type} [FloatOps F]

theorem zeros3 : (![0, 0, 0] : Fin 3 → Nat) = fun _ => 0 := by funext a; fin_cases a <;> rfl
theorem zeros2 : (![0, 0] : Fin 2 → Nat) = fun _ => 0 := by funext a; fin_cases a <;> rfl
theorem zeros1 : (![0] : Fin 1 → Nat) = fun _ => 0 := by funext a; fin_cases a <;> rfl

/-- The tile's last eight rows, as the body loads them. -/
abbrev tailRows (tile : Vec F S1x512x2048 .f32) : Vec F S1x8x2048 .f32 :=
  View.ld tile (Rect.unit (s := S1x512x2048) ![0, 504, 0] S1x8x2048.size inb_S1x512x2048_S1x8x2048_0_504_0)

/-- Row `k` of the transposed taps, as the body loads it. -/
abbrev tapsRow0 (wt : Vec F S4x2048 .f32) : Vec F S1x2048 .f32 := View.ld wt (Rect.unit (s := S4x2048) ![0, 0] S1x2048.size inb_S4x2048_S1x2048_0_0)
abbrev tapsRow1 (wt : Vec F S4x2048 .f32) : Vec F S1x2048 .f32 := View.ld wt (Rect.unit (s := S4x2048) ![1, 0] S1x2048.size inb_S4x2048_S1x2048_1_0)
abbrev tapsRow2 (wt : Vec F S4x2048 .f32) : Vec F S1x2048 .f32 := View.ld wt (Rect.unit (s := S4x2048) ![2, 0] S1x2048.size inb_S4x2048_S1x2048_2_0)
abbrev tapsRow3 (wt : Vec F S4x2048 .f32) : Vec F S1x2048 .f32 := View.ld wt (Rect.unit (s := S4x2048) ![3, 0] S1x2048.size inb_S4x2048_S1x2048_3_0)

/-- The window as the body loads it: the carried rows on top of the tile. -/
abbrev windowOf (v : View sig .tc .vmem S520x2048 .f32) (tile : Vec F S1x512x2048 .f32) (carry : Vec F S8x2048 .f32) : Vec F S520x2048 .f32 :=
  v.readCov (windowPieces (k0_pay5 tile) (k0_pay4 carry)) windowRect.toLoadRect

/-- The output tile as one function of the tile, the carried rows, the taps and the bias. -/
def tileOut (v : View sig .tc .vmem S520x2048 .f32) (tile : Vec F S1x512x2048 .f32) (carry : Vec F S8x2048 .f32)
    (wt : Vec F S4x2048 .f32) (bias : Vec F S2048 .f32) : Vec F S1x512x2048 .f32 :=
  k0_pay1 (k0_pay6 (windowOf v tile carry) (tapsRow0 wt) (tapsRow1 wt) (tapsRow2 wt)) (k0_pay7 (windowOf v tile carry)) (tapsRow3 wt) bias

/-- At a tile that is not a batch's first, the output tile is `tileOut` at the rows the tile before left. -/
theorem out_later (c : Dev nD) (i : grid0.Coords) (arg2 : Memref sig .tc .vmem S1x512x2048 .f32) (harg2 : arg2.IsWhole) (arg3 : Memref sig .tc .vmem S4x2048 .f32) (harg3 : arg3.IsWhole) (arg4 : Memref sig .tc .vmem S2048 .f32) (harg4 : arg4.IsWhole) (arg5 : Memref sig .tc .vmem S1x512x2048 .f32) (harg5 : arg5.IsWhole) (arg6 : Memref sig .tc .vmem S8x2048 .f32) (harg6 : arg6.IsWhole) (arg7 : Memref sig .tc .vmem S520x2048 .f32) (harg7 : arg7.IsWhole) (hc0 : ¬cond0_0 i)
    (x0 : Vec F S1x512x2048 .f32) (x1 : Vec F S4x2048 .f32) (x2 : Vec F S2048 .f32) (xs0 : Vec F S8x2048 .f32) :
    out0_B_3 c i arg2 harg2 arg3 harg3 arg4 harg4 arg5 harg5 arg6 harg6 arg7 harg7 hc0 x0 x1 x2 xs0 = tileOut arg7.view x0 xs0 x1 x2 := by
  unfold out0_B_3
  rw [View.read_writes_eq_canon _ _ _ (cover0_B_3 c i arg2 harg2 arg3 harg3 arg4 harg4 arg5 harg5 arg6 harg6 arg7 harg7 hc0 x0 x1 x2 xs0)]
  unfold kernelRun0_B
  dsimp only
  sl_unfold_words
  rw [View.canon_unit_zero zeros3]
  simp only [View.readAt_eq_ld, harg2.read_unread, harg3.read_unread, harg4.read_unread, harg6.read_unread,
    View.ld_unit_zero (S := S1x512x2048) zeros3, View.ld_unit_zero (S := S8x2048) zeros2, View.ld_unit_zero (S := S2048) zeros1]
  rfl

/-- At a batch's first tile, the output tile is `tileOut` at the reset rows. -/
theorem out_first (c : Dev nD) (i : grid0.Coords) (arg2 : Memref sig .tc .vmem S1x512x2048 .f32) (harg2 : arg2.IsWhole) (arg3 : Memref sig .tc .vmem S4x2048 .f32) (harg3 : arg3.IsWhole) (arg4 : Memref sig .tc .vmem S2048 .f32) (harg4 : arg4.IsWhole) (arg5 : Memref sig .tc .vmem S1x512x2048 .f32) (harg5 : arg5.IsWhole) (arg6 : Memref sig .tc .vmem S8x2048 .f32) (harg6 : arg6.IsWhole) (arg7 : Memref sig .tc .vmem S520x2048 .f32) (harg7 : arg7.IsWhole) (hc0 : cond0_0 i)
    (x0 : Vec F S1x512x2048 .f32) (x1 : Vec F S4x2048 .f32) (x2 : Vec F S2048 .f32) :
    out0_A_3 c i arg2 harg2 arg3 harg3 arg4 harg4 arg5 harg5 arg6 harg6 arg7 harg7 hc0 x0 x1 x2 = tileOut arg7.view x0 (k0_pay3 (F := F)) x1 x2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero zeros3]
  simp only [View.readAt_eq_ld, harg2.read_unread, harg3.read_unread, harg4.read_unread,
    View.readCov_unit_zero (S := S8x2048) _ zeros2,
    View.ld_unit_zero (S := S1x512x2048) zeros3, View.ld_unit_zero (S := S2048) zeros1]
  rfl

/-- At a tile that is not a batch's first, the carry ends as the tile's last eight rows. -/
theorem carry_later (c : Dev nD) (i : grid0.Coords) (arg2 : Memref sig .tc .vmem S1x512x2048 .f32) (harg2 : arg2.IsWhole) (arg3 : Memref sig .tc .vmem S4x2048 .f32) (harg3 : arg3.IsWhole) (arg4 : Memref sig .tc .vmem S2048 .f32) (harg4 : arg4.IsWhole) (arg5 : Memref sig .tc .vmem S1x512x2048 .f32) (harg5 : arg5.IsWhole) (arg6 : Memref sig .tc .vmem S8x2048 .f32) (harg6 : arg6.IsWhole) (arg7 : Memref sig .tc .vmem S520x2048 .f32) (harg7 : arg7.IsWhole) (hc0 : ¬cond0_0 i)
    (x0 : Vec F S1x512x2048 .f32) (x1 : Vec F S4x2048 .f32) (x2 : Vec F S2048 .f32) (xs0 : Vec F S8x2048 .f32) :
    sout0_B_0 c i arg2 harg2 arg3 harg3 arg4 harg4 arg5 harg5 arg6 harg6 arg7 harg7 hc0 x0 x1 x2 xs0 = k0_pay2 (tailRows x0) := by
  unfold sout0_B_0
  rw [View.read_writes_eq_canon _ _ _ (scover0_B_0 c i arg2 harg2 arg3 harg3 arg4 harg4 arg5 harg5 arg6 harg6 arg7 harg7 hc0 x0 x1 x2 xs0)]
  unfold kernelRun0_B
  dsimp only
  rw [View.canon_unit_zero zeros2]
  simp only [View.readAt_eq_ld, harg2.read_unread]

/-- At a batch's first tile too: the reset is overwritten whole by the tile's last eight rows. -/
theorem carry_first (c : Dev nD) (i : grid0.Coords) (arg2 : Memref sig .tc .vmem S1x512x2048 .f32) (harg2 : arg2.IsWhole) (arg3 : Memref sig .tc .vmem S4x2048 .f32) (harg3 : arg3.IsWhole) (arg4 : Memref sig .tc .vmem S2048 .f32) (harg4 : arg4.IsWhole) (arg5 : Memref sig .tc .vmem S1x512x2048 .f32) (harg5 : arg5.IsWhole) (arg6 : Memref sig .tc .vmem S8x2048 .f32) (harg6 : arg6.IsWhole) (arg7 : Memref sig .tc .vmem S520x2048 .f32) (harg7 : arg7.IsWhole) (hc0 : cond0_0 i)
    (x0 : Vec F S1x512x2048 .f32) (x1 : Vec F S4x2048 .f32) (x2 : Vec F S2048 .f32) :
    sout0_A_0 c i arg2 harg2 arg3 harg3 arg4 harg4 arg5 harg5 arg6 harg6 arg7 harg7 hc0 x0 x1 x2 = k0_pay2 (tailRows x0) := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  rw [View.canon_cons_unit_zero zeros2]
  simp only [View.readAt_eq_ld, harg2.read_unread]

end Cert.CausalConv.Kernel

end
-- ==== Proof.ConvSpec.lean ====
/-
  The function both programs compute, stated once over the whole argument arrays.

  A causal depthwise convolution along the time axis with four taps, followed by SiLU:
  for batch b, time t and channel c,

      y b t c = x⁰ b (t-3) c · w c 0 + x⁰ b (t-2) c · w c 1 + x⁰ b (t-1) c · w c 2 + x⁰ b t c · w c 3 + β c,
      out b t c = y b t c · σ (y b t c),

  where x⁰ is x extended by zero to negative times and σ y = 1 / (1 + e^(-y)) is the logistic function on the
  extended reals (with σ ⊥ = 0 and σ ⊤ = 1).  Tap k of output time t reads time t + k - 3.

  The two programs add the five terms in different orders; addition of extended reals is commutative and
  associative at the infinities too, so no finiteness of the inputs is used anywhere.
-/
import Idealize.ShloMosaic.Lib.ValueIdx
import Idealize.ShloMosaic.Lib.IdealHost
import Idealize.ShloMosaic.PureOps.Ideal.Laws

noncomputable section

namespace Cert.CausalConv

open Idealize.ShloMosaic Idealize.ShloMosaic.ValueIdx

/-- The input and output arrays: batch × time × channel. -/
abbrev SX : Shape := ⟨3, ![4, 4096, 2048]⟩
/-- The taps: channel × tap. -/
abbrev SW : Shape := ⟨2, ![2048, 4]⟩
/-- The bias: one entry per channel. -/
abbrev SB : Shape := ⟨1, ![2048]⟩

/-- The input at time `t + k - 3` of batch `b` and channel `c`, and zero when that time is negative:
    what tap `k` of output time `t` reads. -/
def tapRead (x : SX.Idx → EReal) (b : Fin 4) (t : Fin 4096) (c : Fin 2048) (k : Fin 4) : EReal :=
  if h : 3 ≤ t.val + k.val then
    x (ix3 b ⟨t.val + k.val - 3, by have := t.isLt; have := k.isLt; omega⟩ c)
  else 0

/-- One tap's term: the input the tap reads times the tap's weight for the channel. -/
def tapTerm (x : SX.Idx → EReal) (w : SW.Idx → EReal) (b : Fin 4) (t : Fin 4096) (c : Fin 2048) (k : Fin 4) : EReal :=
  tapRead x b t c k * w (ix2 c k)

/-- The convolution with its bias, the four taps added first to last and the bias last. -/
def preact (x : SX.Idx → EReal) (w : SW.Idx → EReal) (β : SB.Idx → EReal) (b : Fin 4) (t : Fin 4096) (c : Fin 2048) : EReal :=
  tapTerm x w b t c 0 + tapTerm x w b t c 1 + tapTerm x w b t c 2 + tapTerm x w b t c 3 + β (ix1 c)

/-- SiLU on the extended reals: `y · σ y`. -/
def silu (y : EReal) : EReal := y * Ideal.logistic y

/-- The whole result array. -/
def convSilu (x : SX.Idx → EReal) (w : SW.Idx → EReal) (β : SB.Idx → EReal) : SX.Idx → EReal :=
  fun j => silu (preact x w β (j 0) (j 1) (j 2))

theorem convSilu_apply (x : SX.Idx → EReal) (w : SW.Idx → EReal) (β : SB.Idx → EReal) (b : Fin 4) (t : Fin 4096) (c : Fin 2048) :
    convSilu x w β (ix3 b t c) = silu (preact x w β b t c) := rfl

/-- Five terms added bias first and taps after it are the same sum as taps first and bias last. -/
theorem bias_first (β a0 a1 a2 a3 : EReal) : β + a0 + a1 + a2 + a3 = a0 + a1 + a2 + a3 + β := by
  rw [add_assoc β, add_assoc β, add_assoc β, add_comm β]

/-- The logistic function written out with the float pattern of one: `1 / (1 + e^(-y))`. -/
theorem logistic_expanded (y : EReal) :
    Ideal.div (Ideal.ofBits .f32 0x3F800000#32) (Ideal.ofBits .f32 0x3F800000#32 + Ideal.exp (-y)) = Ideal.logistic y := by
  rw [Ideal.ofBits_one_f32]; rfl

/-- A tap whose time is not negative reads the input there. -/
theorem tapRead_of_le (x : SX.Idx → EReal) (b : Fin 4) (t : Fin 4096) (c : Fin 2048) (k : Fin 4) (s : Fin 4096)
    (hs : s.val + 3 = t.val + k.val) : tapRead x b t c k = x (ix3 b s c) := by
  unfold tapRead
  rw [dif_pos (by omega)]
  exact congrArg (fun u => x (ix3 b u c)) (Fin.ext (by show t.val + k.val - 3 = s.val; omega))

/-- A tap whose time is negative reads zero. -/
theorem tapRead_of_lt (x : SX.Idx → EReal) (b : Fin 4) (t : Fin 4096) (c : Fin 2048) (k : Fin 4)
    (h : t.val + k.val < 3) : tapRead x b t c k = 0 := by
  unfold tapRead
  rw [dif_neg (by omega)]

end Cert.CausalConv

end
-- ==== Proof.BodyValue.lean ====
/-
  The kernel body's arithmetic, read at one entry of the output tile.

  With W the 520-row window (eight carried rows, then the tile's 512), w₀ … w₃ the four rows of the transposed
  taps and β the bias, entry (p, q) of what the body stores is

      y = W (5 + p) q · w₀ q + W (6 + p) q · w₁ q + W (7 + p) q · w₂ q + W (8 + p) q · w₃ q + β q,   out = y · σ y:

  tap k reads window row 5 + k + p, three rows above the tile's row p for k = 0.  The layout operations between
  the loads and the arithmetic (a unit axis dropped or added, a row laid down all 512 rows, a block of rows cut
  out of the window) move entries and change none.
-/
import proofs.«402709_j62242666053983_3_alg».proof.Proof.Gen.KernelIdeal.Frame
import proofs.«402709_j62242666053983_3_alg».proof.Proof.ConvSpec
import Idealize.ShloMosaic.Lib.ValueIdx
import Idealize.ShloMosaic.Lib.ValueLayout
import Idealize.ShloMosaic.Lib.Pipeline.Value
import Idealize.ShloMosaic.PureOps.Ideal.Laws

noncomputable section

namespace Cert.CausalConv.Kernel

open Cert.KernelIdeal Cert.KernelIdeal.Gen Idealize.ShloMosaic Idealize.ShloMosaic.TcCoe Idealize.ShloMosaic.ValueIdx

/-! ## The layout operations of the body, read at an index -/

section Layout
variable {α : Type}

/-- A row of the taps, laid down all 512 rows, is that row's entry in every row. -/
theorem rowDown (wrow : S1x2048.Idx → α) (p : Fin 512) (q : Fin 2048) :
    broadcastTo S512x2048 (shapeCast S1x2048 (shapeCast S2048 wrow shapeCasts_S1x2048_S2048) shapeCasts_S2048_S1x2048)
      broadcasts_S1x2048_S512x2048 (ix2 p q) = wrow (ix2 (0 : Fin 1) q) :=
  (broadcastTo_1b_ab_apply _ _ p q).trans ((shapeCast_a_1a_apply _ _ 0 q).trans (shapeCast_1a_a_apply _ _ q))

/-- A one-row array flattened to its row: entry `q` is the row's entry `q`. -/
theorem rowFlat (wrow : S1x2048.Idx → α) (q : Fin 2048) :
    shapeCast S2048 wrow shapeCasts_S1x2048_S2048 (ix1 q) = wrow (ix2 (0 : Fin 1) q) :=
  shapeCast_1a_a_apply _ _ q

/-- The bias, laid down all 512 rows, is the channel's bias in every row. -/
theorem biasDown (β : S2048.Idx → α) (p : Fin 512) (q : Fin 2048) :
    broadcastTo S512x2048 (shapeCast S1x2048 β shapeCasts_S2048_S1x2048) broadcasts_S1x2048_S512x2048 (ix2 p q) = β (ix1 q) :=
  (broadcastTo_1b_ab_apply _ _ p q).trans (shapeCast_a_1a_apply _ _ 0 q)

/-- The 512 rows of the window from row `o`: row `p` of them is window row `o + p`. -/
theorem rowsOf (o : Nat) (W : S520x2048.Idx → α) (h : S520x2048.Slices ![o, 0] S512x2048) (p : Fin 512) (q : Fin 2048)
    (r : Fin 520) (hr : r.val = o + p.val) : extractStridedSlice S512x2048 ![o, 0] W h (ix2 p q) = W (ix2 r q) :=
  slice2_axis0_apply o W h p q r hr

end Layout

/-! ## The stores' payloads at an index -/

section Payloads
variable {F : FTy → Type} [FloatOps F]

/-- What the body writes into the window's rows 8-519 is the tile, its unit batch axis dropped. -/
theorem tilePayload_apply (tile : Vec F S1x512x2048 .f32) (p : Fin 512) (q : Fin 2048) :
    k0_pay5 tile (ix2 p q) = tile (ix3 (0 : Fin 1) p q) := by
  unfold k0_pay5
  rw [shapeCast_self]
  exact shapeCast_1ab_ab_apply _ _ p q

/-- What the body writes into the window's rows 0-7 is the carried rows as loaded. -/
theorem carryPayload_eq (carry : Vec F S8x2048 .f32) : k0_pay4 carry = carry := by
  unfold k0_pay4
  exact shapeCast_self _ _

/-- What the body leaves in the carry is the eight rows it loaded from the tile's end, their unit batch axis dropped. -/
theorem tailPayload_apply (tail : Vec F S1x8x2048 .f32) (p : Fin 8) (q : Fin 2048) :
    k0_pay2 tail (ix2 p q) = tail (ix3 (0 : Fin 1) p q) := by
  unfold k0_pay2
  rw [shapeCast_self]
  exact shapeCast_1ab_ab_apply _ _ p q

end Payloads

/-- The reset value of the carry is zero in every entry. -/
theorem resetPayload_apply (j : S8x2048.Idx) : k0_pay3 (F := Ideal) j = 0 := by
  unfold k0_pay3
  rw [shapeCast_self]
  exact Ideal.ofBits_zero_f32

/-- Taps 0, 1 and 2 at entry (p, q): window rows 5 + p, 6 + p, 7 + p against the taps' rows 0, 1, 2. -/
theorem taps012_apply (W : FVec Ideal S520x2048 .f32) (w0 w1 w2 : FVec Ideal S1x2048 .f32) (p : Fin 512) (q : Fin 2048)
    (r5 r6 r7 : Fin 520) (h5 : r5.val = 5 + p.val) (h6 : r6.val = 6 + p.val) (h7 : r7.val = 7 + p.val) :
    k0_pay6 W w0 w1 w2 (ix2 p q)
      = W (ix2 r5 q) * w0 (ix2 (0 : Fin 1) q) + W (ix2 r6 q) * w1 (ix2 (0 : Fin 1) q) + W (ix2 r7 q) * w2 (ix2 (0 : Fin 1) q) := by
  unfold k0_pay6
  simp only [addf_apply, mulf_apply, rowDown, biasDown, rowFlat,
    rowsOf 5 W slices_S520x2048_o5_0_S512x2048 p q r5 h5,
    rowsOf 6 W slices_S520x2048_o6_0_S512x2048 p q r6 h6,
    rowsOf 7 W slices_S520x2048_o7_0_S512x2048 p q r7 h7]

/-- Tap 3's rows at entry (p, q): window row 8 + p. -/
theorem tap3rows_apply (W : FVec Ideal S520x2048 .f32) (p : Fin 512) (q : Fin 2048) (r8 : Fin 520) (h8 : r8.val = 8 + p.val) :
    k0_pay7 W (ix2 p q) = W (ix2 r8 q) := by
  unfold k0_pay7
  exact rowsOf 8 W slices_S520x2048_o8_0_S512x2048 p q r8 h8

/-- The stored entry from the first three taps' sum `a` and tap 3's rows `d`: `y · σ y` with `y = a + d · w₃ + β`. -/
theorem stored_apply (a d : FVec Ideal S512x2048 .f32) (w3 : FVec Ideal S1x2048 .f32) (β : FVec Ideal S2048 .f32)
    (u : Fin 1) (p : Fin 512) (q : Fin 2048) :
    k0_pay1 a d w3 β (ix3 u p q) = silu (a (ix2 p q) + d (ix2 p q) * w3 (ix2 (0 : Fin 1) q) + β (ix1 q)) := by
  unfold k0_pay1
  refine (shapeCast_ab_1ab_apply _ _ u p q).trans ?_
  show (_ : EReal) * Ideal.logistic _ = silu _
  unfold silu
  simp only [addf_apply, mulf_apply, rowDown, biasDown, rowFlat]

/-- The whole body at entry (p, q) of the tile. -/
theorem body_apply (W : FVec Ideal S520x2048 .f32) (w0 w1 w2 w3 : FVec Ideal S1x2048 .f32) (β : FVec Ideal S2048 .f32)
    (u : Fin 1) (p : Fin 512) (q : Fin 2048) (r5 r6 r7 r8 : Fin 520)
    (h5 : r5.val = 5 + p.val) (h6 : r6.val = 6 + p.val) (h7 : r7.val = 7 + p.val) (h8 : r8.val = 8 + p.val) :
    k0_pay1 (F := Ideal) (k0_pay6 W w0 w1 w2) (k0_pay7 W) w3 β (ix3 u p q)
      = silu (W (ix2 r5 q) * w0 (ix2 (0 : Fin 1) q) + W (ix2 r6 q) * w1 (ix2 (0 : Fin 1) q) + W (ix2 r7 q) * w2 (ix2 (0 : Fin 1) q)
          + W (ix2 r8 q) * w3 (ix2 (0 : Fin 1) q) + β (ix1 q)) := by
  rw [stored_apply, taps012_apply W w0 w1 w2 p q r5 r6 r7 h5 h6 h7, tap3rows_apply W p q r8 h8]

end Cert.CausalConv.Kernel

end
-- ==== Proof.TileValue.lean ====
/-
  The output tile, entry by entry, is the specification.

  Entry (p, q) of a tile whose first time is t₀ computes output time t = t₀ + p of channel q.  Tap k reads window
  row 5 + k + p.  When p + k ≥ 3 that is row p + k - 3 of the tile, the input at time t + k - 3.  Otherwise it is
  one of the last three carried rows, which hold the input at the negative offset k - 3 from the tile's start:
  zero at a batch's first tile, the tile before's rows 509 + k + p otherwise.  Either way it is what tap k of
  time t reads in the specification, so the entry is the specification's.
-/
import proofs.«402709_j62242666053983_3_alg».proof.Proof.CaseTerms
import proofs.«402709_j62242666053983_3_alg».proof.Proof.BodyValue

noncomputable section

namespace Cert.CausalConv.Kernel

open Cert.KernelIdeal Cert.KernelIdeal.Gen Idealize.ShloMosaic Idealize.ShloMosaic.TcCoe Idealize.ShloMosaic.ValueIdx

section Reads
variable {F : FTy → Type} [FloatOps F]

/-- From row 8 on, the window is the tile. -/
theorem windowOf_tileRow (v : View sig .tc .vmem S520x2048 .f32) (tile : Vec F S1x512x2048 .f32) (carry : Vec F S8x2048 .f32)
    (r : Fin 520) (q : Fin 2048) (p : Fin 512) (hr : r.val = 8 + p.val) :
    windowOf v tile carry (ix2 r q) = tile (ix3 (0 : Fin 1) p q) :=
  (window_tileRow v (k0_pay5 tile) (k0_pay4 carry) r q p hr).trans (tilePayload_apply tile p q)

/-- Below row 8, the window is the carried rows. -/
theorem windowOf_carryRow (v : View sig .tc .vmem S520x2048 .f32) (tile : Vec F S1x512x2048 .f32) (carry : Vec F S8x2048 .f32)
    (r : Fin 520) (q : Fin 2048) (p : Fin 8) (hr : r.val = p.val) :
    windowOf v tile carry (ix2 r q) = carry (ix2 p q) :=
  (window_carryRow v (k0_pay5 tile) (k0_pay4 carry) r q p hr).trans (congrFun (carryPayload_eq carry) _)

/-- The loaded rows of the transposed taps are its rows. -/
theorem tapsRow0_apply (wt : Vec F S4x2048 .f32) (q : Fin 2048) : tapsRow0 wt (ix2 (0 : Fin 1) q) = wt (ix2 (0 : Fin 4) q) :=
  congrArg wt (funext fun a => Fin.ext (by match a with | ⟨0, _⟩ => rfl | ⟨1, _⟩ => show 0 + 1 * q.val = q.val; omega))
theorem tapsRow1_apply (wt : Vec F S4x2048 .f32) (q : Fin 2048) : tapsRow1 wt (ix2 (0 : Fin 1) q) = wt (ix2 (1 : Fin 4) q) :=
  congrArg wt (funext fun a => Fin.ext (by match a with | ⟨0, _⟩ => rfl | ⟨1, _⟩ => show 0 + 1 * q.val = q.val; omega))
theorem tapsRow2_apply (wt : Vec F S4x2048 .f32) (q : Fin 2048) : tapsRow2 wt (ix2 (0 : Fin 1) q) = wt (ix2 (2 : Fin 4) q) :=
  congrArg wt (funext fun a => Fin.ext (by match a with | ⟨0, _⟩ => rfl | ⟨1, _⟩ => show 0 + 1 * q.val = q.val; omega))
theorem tapsRow3_apply (wt : Vec F S4x2048 .f32) (q : Fin 2048) : tapsRow3 wt (ix2 (0 : Fin 1) q) = wt (ix2 (3 : Fin 4) q) :=
  congrArg wt (funext fun a => Fin.ext (by match a with | ⟨0, _⟩ => rfl | ⟨1, _⟩ => show 0 + 1 * q.val = q.val; omega))

/-- The rows the body leaves in the carry are the tile's rows 504-511. -/
theorem carried_apply (tile : Vec F S1x512x2048 .f32) (r : Fin 8) (q : Fin 2048) (s : Fin 512) (hs : s.val = 504 + r.val) :
    k0_pay2 (tailRows tile) (ix2 r q) = tile (ix3 (0 : Fin 1) s q) :=
  (tailPayload_apply (tailRows tile) r q).trans
    (congrArg tile (funext fun a => Fin.ext (by
      match a with
      | ⟨0, _⟩ => rfl
      | ⟨1, _⟩ => show 504 + 1 * r.val = s.val; omega
      | ⟨2, _⟩ => show 0 + 1 * q.val = q.val; omega)))

end Reads

/-- ENTRY (p, q) OF THE OUTPUT TILE IS THE SPECIFICATION at time `t = t₀ + p`, for a tile that holds the input from
    time `t₀`, the arguments' taps and bias, and carried rows that hold what the taps reaching before the tile read. -/
theorem tileOut_apply (v : View sig .tc .vmem S520x2048 .f32)
    (tile : Vec Ideal S1x512x2048 .f32) (carry : Vec Ideal S8x2048 .f32) (wt : Vec Ideal S4x2048 .f32) (bias : Vec Ideal S2048 .f32)
    (x : CausalConv.SX.Idx → EReal) (w : CausalConv.SW.Idx → EReal) (β : CausalConv.SB.Idx → EReal)
    (b : Fin 4) (t : Fin 4096) (t0 : Nat) (u : Fin 1) (p : Fin 512) (q : Fin 2048) (ht : t.val = t0 + p.val)
    (htile : ∀ (p' : Fin 512) (s : Fin 4096), s.val = t0 + p'.val → tile (ix3 (0 : Fin 1) p' q) = x (ix3 b s q))
    (hcarry : ∀ (r : Fin 8) (k : Fin 4), r.val = 5 + k.val + p.val → carry (ix2 r q) = tapRead x b t q k)
    (hw : ∀ k : Fin 4, wt (ix2 k q) = w (ix2 q k)) (hb : bias (ix1 q) = β (ix1 q)) :
    tileOut v tile carry wt bias (ix3 u p q) = convSilu x w β (ix3 b t q) := by
  have hp := p.isLt
  have tap : ∀ (k : Fin 4) (r : Fin 520), r.val = 5 + k.val + p.val →
      windowOf v tile carry (ix2 r q) = tapRead x b t q k := by
    intro k r hr
    have hk := k.isLt
    have htl := t.isLt
    by_cases h : 3 ≤ p.val + k.val
    · have hp' : p.val + k.val - 3 < 512 := by omega
      have hs : t.val + k.val - 3 < 4096 := by omega
      rw [windowOf_tileRow v tile carry r q ⟨p.val + k.val - 3, hp'⟩ (by show r.val = 8 + (p.val + k.val - 3); omega),
        htile ⟨p.val + k.val - 3, hp'⟩ ⟨t.val + k.val - 3, hs⟩ (by show t.val + k.val - 3 = t0 + (p.val + k.val - 3); omega)]
      exact (tapRead_of_le x b t q k ⟨t.val + k.val - 3, hs⟩ (by show t.val + k.val - 3 + 3 = t.val + k.val; omega)).symm
    · have hr8 : 5 + k.val + p.val < 8 := by omega
      rw [windowOf_carryRow v tile carry r q ⟨5 + k.val + p.val, hr8⟩ hr]
      exact hcarry ⟨5 + k.val + p.val, hr8⟩ k rfl
  unfold tileOut
  rw [body_apply (windowOf v tile carry) (tapsRow0 wt) (tapsRow1 wt) (tapsRow2 wt) (tapsRow3 wt) bias u p q
      ⟨5 + p.val, by omega⟩ ⟨6 + p.val, by omega⟩ ⟨7 + p.val, by omega⟩ ⟨8 + p.val, by omega⟩ rfl rfl rfl rfl,
    convSilu_apply]
  refine congrArg silu ?_
  rw [tap 0 ⟨5 + p.val, by omega⟩ (by show 5 + p.val = 5 + 0 + p.val; omega),
    tap 1 ⟨6 + p.val, by omega⟩ (by show 6 + p.val = 5 + 1 + p.val; omega),
    tap 2 ⟨7 + p.val, by omega⟩ (by show 7 + p.val = 5 + 2 + p.val; omega),
    tap 3 ⟨8 + p.val, by omega⟩ (by show 8 + p.val = 5 + 3 + p.val; omega),
    tapsRow0_apply, tapsRow1_apply, tapsRow2_apply, tapsRow3_apply, hw 0, hw 1, hw 2, hw 3, hb]
  rfl

end Cert.CausalConv.Kernel

end
-- ==== Proof.KernelIsSpec.lean ====
/-
  The kernel computes the specification.

  Point t of the grid writes back the output tile of batch t / 8, times 512 · (t % 8) … 512 · (t % 8) + 511.  Its
  entries are the specification's (the tile, entry by entry), given what the carried rows hold when the point
  starts: at a batch's first tile the zeros the body has just written, which is what the specification reads
  before time 0; at a later tile the last eight rows of the tile before, left there by the point before, which
  belongs to the same batch because t % 8 ≠ 0.  The 32 tiles cover the output array, so after the run the array is
  the specification of the arguments.
-/
import proofs.«402709_j62242666053983_3_alg».proof.Proof.BlockReads
import proofs.«402709_j62242666053983_3_alg».proof.Proof.TileValue

set_option maxRecDepth 16384

noncomputable section

namespace Cert.CausalConv.Kernel

open Cert.KernelIdeal Cert.KernelIdeal.Gen Cert.KernelIdeal.Value Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Point `t`'s input tile, taps and bias, by their literal types. -/
abbrev xblk (c : Dev nD) (t : Fin cfg0.N) : Vec Ideal S1x512x2048 .f32 := iblk m c 0 t
abbrev wblk (c : Dev nD) (t : Fin cfg0.N) : Vec Ideal S4x2048 .f32 := iblk m c 1 t
abbrev bblk (c : Dev nD) (t : Fin cfg0.N) : Vec Ideal S2048 .f32 := iblk m c 2 t

/-- After ANY point the carried rows are that point's input tile's rows 504-511. -/
theorem carryAfter (c : Dev nD) (n : Fin cfg0.N) :
    (outsAt0 m c n.val n.isLt).2 = k0_pay2 (tailRows (xblk m c n)) := by
  by_cases h0 : n.val % 8 = 0
  · rw [outsAt0_A m c n h0]; dsimp only
    exact carry_first (F := Ideal) c (grid0.coords n) (ms0_0 n) (hs0_0 n) (ms0_1 n) (hs0_1 n) (ms0_2 n) (hs0_2 n) (ms0_3 n) (hs0_3 n) scM0_0 (Memref.isWhole_whole _) scM0_1 (Memref.isWhole_whole _) ((hcond0_0 n).mpr h0) (xblk m c n) (wblk m c n) (bblk m c n)
  · rw [outsAt0_B m c n h0]; dsimp only
    exact carry_later (F := Ideal) c (grid0.coords n) (ms0_0 n) (hs0_0 n) (ms0_1 n) (hs0_1 n) (ms0_2 n) (hs0_2 n) (ms0_3 n) (hs0_3 n) scM0_0 (Memref.isWhole_whole _) scM0_1 (Memref.isWhole_whole _) (fun h => h0 ((hcond0_0 n).mp h)) (xblk m c n) (wblk m c n) (bblk m c n)
      (outsAt0 m c (n.val - 1) (Nat.lt_of_le_of_lt (Nat.sub_le _ _) n.isLt)).2

/-- An entry of point `t`'s output tile is the specification's, whatever rows are carried in, provided the carried
    rows the taps reach hold what those taps read. -/
theorem tile_entry (c : Dev nD) (t : Fin cfg0.N) (carry : Vec Ideal S8x2048 .f32) (u : Fin 1) (p : Fin 512) (q : Fin 2048)
    (b : Fin 4) (s : Fin 4096) (hb : b.val = t.val / 8) (hs : s.val = 512 * (t.val % 8) + p.val)
    (hcarry : ∀ (r : Fin 8) (k : Fin 4), r.val = 5 + k.val + p.val → carry (ix2 r q) = tapRead (V m c main_arg0) b s q k) :
    tileOut scM0_1.view (xblk m c t) carry (wblk m c t) (bblk m c t) (ix3 u p q) = convSilu (V m c main_arg0) (m ((c : Thread nD τ).loc main_arg1)) (V m c main_arg2) (ix3 b s q) :=
  tileOut_apply scM0_1.view (xblk m c t) carry (wblk m c t) (bblk m c t) (V m c main_arg0) (m ((c : Thread nD τ).loc main_arg1))
    (V m c main_arg2) b s (512 * (t.val % 8)) u p q hs
    (fun p' s' hs' => inputBlock_apply m c t p' q b s' hb hs')
    hcarry
    (fun k => (tapsBlock_apply m c t k q).trans (stagedTaps_apply m c k q))
    (biasBlock_apply m c t q)

/-- The output tile at a batch's first tile. -/
theorem firstTile (c : Dev nD) (t : Fin cfg0.N) (h0 : t.val % 8 = 0) (hN : t.val < 32) :
    out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (xblk m c t) (wblk m c t) (bblk m c t)
      = fun j : S1x512x2048.Idx => convSilu (V m c main_arg0) (m ((c : Thread nD τ).loc main_arg1)) (V m c main_arg2)
          (ix3 (⟨t.val / 8, by omega⟩ : Fin 4) (⟨512 * (t.val % 8) + (j 1).val, by have : (j 1).val < 512 := (j 1).isLt; omega⟩ : Fin 4096) (j 2)) := by
  rw [out_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (xblk m c t) (wblk m c t) (bblk m c t)]
  funext j
  obtain ⟨u, p, q, rfl⟩ : ∃ (u : Fin 1) (p : Fin 512) (q : Fin 2048), j = ix3 u p q := ⟨j 0, j 1, j 2, eq_ix3 j⟩
  refine tile_entry m c t _ u p q _ _ rfl rfl fun r k hr => ?_
  rw [resetPayload_apply]
  exact (tapRead_of_lt _ _ _ _ _ (by show 512 * (t.val % 8) + p.val + k.val < 3; omega)).symm

/-- The output tile at a later tile of a batch. -/
theorem laterTile (c : Dev nD) (t : Fin cfg0.N) (h0 : ¬t.val % 8 = 0) (hN : t.val < 32) :
    out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (xblk m c t) (wblk m c t) (bblk m c t)
        (outsAt0 m c (t.val - 1) (Nat.lt_of_le_of_lt (Nat.sub_le _ _) t.isLt)).2
      = fun j : S1x512x2048.Idx => convSilu (V m c main_arg0) (m ((c : Thread nD τ).loc main_arg1)) (V m c main_arg2)
          (ix3 (⟨t.val / 8, by omega⟩ : Fin 4) (⟨512 * (t.val % 8) + (j 1).val, by have : (j 1).val < 512 := (j 1).isLt; omega⟩ : Fin 4096) (j 2)) := by
  have hlt : t.val - 1 < cfg0.N := Nat.lt_of_le_of_lt (Nat.sub_le _ _) t.isLt
  rw [out_later (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (xblk m c t) (wblk m c t) (bblk m c t)
    (outsAt0 m c (t.val - 1) hlt).2]
  funext j
  obtain ⟨u, p, q, rfl⟩ : ∃ (u : Fin 1) (p : Fin 512) (q : Fin 2048), j = ix3 u p q := ⟨j 0, j 1, j 2, eq_ix3 j⟩
  refine tile_entry m c t _ u p q _ _ rfl rfl fun r k hr => ?_
  have hk := k.isLt
  have hp := p.isLt
  have hs8 : 504 + r.val < 512 := by have := r.isLt; omega
  have hs' : 512 * ((t.val - 1) % 8) + (504 + r.val) < 4096 := by omega
  rw [carryAfter m c ⟨t.val - 1, hlt⟩, carried_apply (xblk m c ⟨t.val - 1, hlt⟩) r q ⟨504 + r.val, hs8⟩ rfl]
  refine (inputBlock_apply m c ⟨t.val - 1, hlt⟩ ⟨504 + r.val, hs8⟩ q ⟨t.val / 8, by omega⟩
    ⟨512 * ((t.val - 1) % 8) + (504 + r.val), hs'⟩ (by show t.val / 8 = (t.val - 1) / 8; omega) rfl).trans ?_
  exact (tapRead_of_le _ _ _ _ _ _
    (by show 512 * ((t.val - 1) % 8) + (504 + r.val) + 3 = 512 * (t.val % 8) + p.val + k.val; omega)).symm

/-- WHAT POINT `t` WRITES BACK is its block of the specification of the arrays as the region finds them. -/
theorem flushed_eq (c : Dev nD) (t : Fin cfg0.N) :
    (dats m 0 c).flushed 3 t = ((cfg0.win 3).blk t).view.read (Elt Ideal) (convSilu (V m c main_arg0) (m ((c : Thread nD τ).loc main_arg1)) (V m c main_arg2)) := by
  have hN : t.val < 32 := lt_of_lt_of_eq t.isLt (show cfg0.N = 32 from N_0)
  obtain ⟨-, -, -, o0, o1, o2, -⟩ := grid_facts t
  have hemb : ∀ j : S1x512x2048.Idx, ((cfg0.win 3).blk t).view.emb j
      = ix3 (⟨t.val / 8, by omega⟩ : Fin 4) (⟨512 * (t.val % 8) + (j 1).val, by have : (j 1).val < 512 := (j 1).isLt; omega⟩ : Fin 4096) (j 2) := by
    intro j
    funext a; apply Fin.ext
    match a with
    | ⟨0, _⟩ => show win0_3.index t (0 : Fin 3) * 1 + 1 * (j 0).val = t.val / 8; have : (j 0).val < 1 := (j 0).isLt; omega
    | ⟨1, _⟩ => show win0_3.index t (1 : Fin 3) * 512 + 1 * (j 1).val = 512 * (t.val % 8) + (j 1).val; omega
    | ⟨2, _⟩ => show win0_3.index t (2 : Fin 3) * 2048 + 1 * (j 2).val = (j 2).val; omega
  by_cases h0 : t.val % 8 = 0
  · rw [flushed3_A m c t h0]
    funext j
    show out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (xblk m c t) (wblk m c t) (bblk m c t) j
      = convSilu (V m c main_arg0) (m ((c : Thread nD τ).loc main_arg1)) (V m c main_arg2) (((cfg0.win 3).blk t).view.emb j)
    rw [firstTile m c t h0 hN, hemb j]
    rfl
  · rw [flushed3_B m c t h0]
    funext j
    show out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (xblk m c t) (wblk m c t) (bblk m c t)
        (outsAt0 m c (t.val - 1) (Nat.lt_of_le_of_lt (Nat.sub_le _ _) t.isLt)).2 j
      = convSilu (V m c main_arg0) (m ((c : Thread nD τ).loc main_arg1)) (V m c main_arg2) (((cfg0.win 3).blk t).view.emb j)
    rw [laterTile m c t h0 hN, hemb j]
    rfl

/-- An index of the output array is in point `t`'s block iff each coordinate is in the block's range on its axis. -/
theorem mem_outBlock (t : Fin cfg0.N) (i : S4x4096x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v1).slice (win0_3.rect t)).set ↔ _
  rw [View.set_slice_whole, Rect.mem_set_unit]
  exact Iff.rfl

/-- Every index of the output array is in some point's block: batch b, time s is in the block of point 8 b + s / 512. -/
theorem covered (i : S4x4096x2048.Idx) :
    ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 2048 := (i 2).isLt
  have hlt : 8 * (i 0).val + (i 1).val / 512 < cfg0.N := by rw [show cfg0.N = 32 from N_0]; omega
  obtain ⟨-, -, -, o0, o1, o2, -⟩ := grid_facts ⟨8 * (i 0).val + (i 1).val / 512, hlt⟩
  refine ⟨⟨8 * (i 0).val + (i 1).val / 512, hlt⟩, flush0_3 _, ?_⟩
  rw [mem_outBlock]
  intro a
  match a with
  | ⟨0, _⟩ =>
    show win0_3.index ⟨8 * (i 0).val + (i 1).val / 512, hlt⟩ (0 : Fin 3) * 1 ≤ (i 0).val
      ∧ (i 0).val < win0_3.index ⟨8 * (i 0).val + (i 1).val / 512, hlt⟩ (0 : Fin 3) * 1 + 1
    simp only [] at o0; omega
  | ⟨1, _⟩ =>
    show win0_3.index ⟨8 * (i 0).val + (i 1).val / 512, hlt⟩ (1 : Fin 3) * 512 ≤ (i 1).val
      ∧ (i 1).val < win0_3.index ⟨8 * (i 0).val + (i 1).val / 512, hlt⟩ (1 : Fin 3) * 512 + 512
    simp only [] at o1; omega
  | ⟨2, _⟩ =>
    show win0_3.index ⟨8 * (i 0).val + (i 1).val / 512, hlt⟩ (2 : Fin 3) * 2048 ≤ (i 2).val
      ∧ (i 2).val < win0_3.index ⟨8 * (i 0).val + (i 1).val / 512, hlt⟩ (2 : Fin 3) * 2048 + 2048
    omega

/-- THE OUTPUT ARRAY after the run is the specification of the arrays as the region finds them. -/
theorem final (c : Dev nD) : (dats m 0 c).arrAt 3 cfg0.N = convSilu (V m c main_arg0) (m ((c : Thread nD τ).loc main_arg1)) (V m c main_arg2) :=
  (dats m 0 c).arrAt_eq_of_cover 3 (convSilu (V m c main_arg0) (m ((c : Thread nD τ).loc main_arg1)) (V m c main_arg2)) (fun t _ => flushed_eq m c t) covered

/-- The kernel's run: it ends with the output array at the specification of the arguments, the arguments unchanged. -/
theorem run : θ_run defs (onTc (τ := τ) (main (F := Ideal))) ⟨m, fun _ => 0, ρ⟩ fun r => ∀ c : Dev nD,
      r.2.mem ((c : Thread nD τ).loc main_v1)
          = convSilu (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by rw [V_main_arg0 m c, V_main_arg2 m c])), (h c).2⟩)
    (run_blocks m ρ)

end Cert.CausalConv.Kernel

end
-- ==== Proof.RefPadded.lean ====
/-
  The reference program computes the specification.

  It pads the input with three zero rows in front of the time axis, takes the four windows of 4096 rows that
  start at rows 0, 1, 2 and 3 of the padded array, multiplies window k by column k of the taps laid along the
  channels, adds the four products onto the bias, and applies y ↦ y · (1 / (1 + e^(-y))).

  Row s of the padded array is row s - 3 of the input when s ≥ 3 and the padding value otherwise; the padding
  value is the integer zero converted, which is the real zero.  So window k at time t reads the input at time
  t + k - 3, or zero: the specification's tap read.
-/
import proofs.«402709_j62242666053983_3_alg».proof.Proof.Gen.ReferenceIdeal.Read
import proofs.«402709_j62242666053983_3_alg».proof.Proof.ConvSpec
import Idealize.ShloMosaic.Lib.KernelVsHost
import Idealize.ShloMosaic.Lib.Pipeline.Value

noncomputable section

namespace Cert.CausalConv.Reference

open Cert.ReferenceIdeal Cert.ReferenceIdeal.Gen Cert.ReferenceIdeal.Read Idealize.ShloMosaic Idealize.ShloMosaic.ValueIdx

/-- The padding value is zero. -/
theorem padValue (i : S_.Idx) : val_main_call0_v0 (F := Ideal) i = 0 := by
  rw [val_main_call0_v0_apply, val_main_c_apply]
  exact sitofp_zero (φ := .f32)

/-- A row of the padded array from row 3 on is the input's row three earlier. -/
theorem padded_of_le (x : FVec Ideal S4x4096x2048 .f32) (b : Fin 4) (s : Fin 4099) (c : Fin 2048) (r : Fin 4096)
    (hr : s.val = 3 + r.val) : val_main_v0 (F := Ideal) x (ix3 b s c) = x (ix3 b r c) := by
  unfold val_main_v0
  refine pad_apply_of_inside _ _ _ x _ pads_S4x4096x2048_S4x4099x2048_000_300_000 h_S_ (ix3 b s c) (ix3 b r c) ?_
  intro a
  match a with
  | ⟨0, _⟩ => show b.val = 0 + b.val * (0 + 1); omega
  | ⟨1, _⟩ => show s.val = 3 + r.val * (0 + 1); omega
  | ⟨2, _⟩ => show c.val = 0 + c.val * (0 + 1); omega

/-- The first three rows of the padded array are zero. -/
theorem padded_of_lt (x : FVec Ideal S4x4096x2048 .f32) (b : Fin 4) (s : Fin 4099) (c : Fin 2048)
    (hs : s.val < 3) : val_main_v0 (F := Ideal) x (ix3 b s c) = 0 := by
  unfold val_main_v0
  rw [pad_apply_of_not_inside _ _ _ x _ pads_S4x4096x2048_S4x4099x2048_000_300_000 h_S_ (ix3 b s c) (1 : Fin 3)
    (fun h => absurd (show 3 ≤ s.val from h.1) (by omega))]
  exact padValue _

/-- Row `t + k` of the padded array is what tap `k` of time `t` reads. -/
theorem padded_tap (x : FVec Ideal S4x4096x2048 .f32) (b : Fin 4) (t : Fin 4096) (c : Fin 2048) (k : Fin 4) (s : Fin 4099)
    (hs : s.val = t.val + k.val) : val_main_v0 (F := Ideal) x (ix3 b s c) = tapRead x b t c k := by
  by_cases h : 3 ≤ t.val + k.val
  · have hlt : t.val + k.val - 3 < 4096 := by have := t.isLt; have := k.isLt; omega
    rw [padded_of_le x b s c ⟨t.val + k.val - 3, hlt⟩ (by show s.val = 3 + (t.val + k.val - 3); omega)]
    exact (tapRead_of_le x b t c k ⟨t.val + k.val - 3, hlt⟩ (by show t.val + k.val - 3 + 3 = t.val + k.val; omega)).symm
  · rw [padded_of_lt x b s c (by omega), tapRead_of_lt x b t c k (by omega)]

end Cert.CausalConv.Reference

end
-- ==== Proof.RefIsSpec.lean ====
/-
  The reference program computes the specification (continued): its four windows of the padded array are the
  four tap reads, its broadcast columns of the taps are the weights, its broadcast bias is the bias; it adds the
  bias first and the taps after it, which is the specification's sum in another order; and its last operations
  spell the logistic function out as 1 / (1 + e^(-y)).
-/
import proofs.«402709_j62242666053983_3_alg».proof.Proof.RefPadded

noncomputable section

namespace Cert.CausalConv.Reference

open Cert.ReferenceIdeal Cert.ReferenceIdeal.Gen Cert.ReferenceIdeal.Read Idealize.ShloMosaic Idealize.ShloMosaic.ValueIdx

/-- The padded array at an index whose batch and channel are `b` and `c` and whose row is `t + k`. -/
theorem window_of {j : S4x4099x2048.Idx} (x : FVec Ideal S4x4096x2048 .f32) (b : Fin 4) (t : Fin 4096) (c : Fin 2048) (k : Fin 4)
    (h0 : j 0 = b) (h1 : (j 1).val = t.val + k.val) (h2 : j 2 = c) :
    val_main_v0 (F := Ideal) x j = tapRead x b t c k := by
  rw [eq_ix3 j, h0, h2]
  exact padded_tap x b t c k (j 1) h1

/-- The window of the padded array that starts at row 0, at time `t`, is what tap 0 reads. -/
theorem window0 (x : FVec Ideal S4x4096x2048 .f32) (b : Fin 4) (t : Fin 4096) (c : Fin 2048) :
    val_main_v1 (F := Ideal) x (ix3 b t c) = tapRead x b t c 0 := by
  rw [val_main_v1_apply]
  exact window_of x b t c 0 rfl (by show t.val = t.val + 0; omega) rfl

/-- The window of the padded array that starts at row 1, at time `t`, is what tap 1 reads. -/
theorem window1 (x : FVec Ideal S4x4096x2048 .f32) (b : Fin 4) (t : Fin 4096) (c : Fin 2048) :
    val_main_v10 (F := Ideal) x (ix3 b t c) = tapRead x b t c 1 := by
  rw [val_main_v10_apply]
  exact window_of x b t c 1 rfl (by show 1 + t.val = t.val + 1; omega) rfl

/-- The window of the padded array that starts at row 2, at time `t`, is what tap 2 reads. -/
theorem window2 (x : FVec Ideal S4x4096x2048 .f32) (b : Fin 4) (t : Fin 4096) (c : Fin 2048) :
    val_main_v17 (F := Ideal) x (ix3 b t c) = tapRead x b t c 2 := by
  rw [val_main_v17_apply]
  exact window_of x b t c 2 rfl (by show 2 + t.val = t.val + 2; omega) rfl

/-- The window of the padded array that starts at row 3, at time `t`, is what tap 3 reads. -/
theorem window3 (x : FVec Ideal S4x4096x2048 .f32) (b : Fin 4) (t : Fin 4096) (c : Fin 2048) :
    val_main_v24 (F := Ideal) x (ix3 b t c) = tapRead x b t c 3 := by
  rw [val_main_v24_apply]
  exact window_of x b t c 3 rfl (by show 3 + t.val = t.val + 3; omega) rfl

/-- Column 0 of the taps laid along the channels, at any batch and time, is the tap's weight for the channel. -/
theorem weight0 (w : FVec Ideal S2048x4 .f32) (b : Fin 4) (t : Fin 4096) (c : Fin 2048) :
    val_main_v5 (F := Ideal) w (ix3 b t c) = w (ix2 c 0) := by
  rw [val_main_v5_apply, val_main_v4_apply, val_main_v3_apply, val_main_v2_apply]
  refine congrArg w (funext fun a => ?_)
  match a with
  | ⟨0, _⟩ => exact Fin.ext (Nat.div_one _)
  | ⟨1, _⟩ => exact Fin.ext rfl

/-- Column 1 of the taps laid along the channels, at any batch and time, is the tap's weight for the channel. -/
theorem weight1 (w : FVec Ideal S2048x4 .f32) (b : Fin 4) (t : Fin 4096) (c : Fin 2048) :
    val_main_v14 (F := Ideal) w (ix3 b t c) = w (ix2 c 1) := by
  rw [val_main_v14_apply, val_main_v13_apply, val_main_v12_apply, val_main_v11_apply]
  refine congrArg w (funext fun a => ?_)
  match a with
  | ⟨0, _⟩ => exact Fin.ext (Nat.div_one _)
  | ⟨1, _⟩ => exact Fin.ext rfl

/-- Column 2 of the taps laid along the channels, at any batch and time, is the tap's weight for the channel. -/
theorem weight2 (w : FVec Ideal S2048x4 .f32) (b : Fin 4) (t : Fin 4096) (c : Fin 2048) :
    val_main_v21 (F := Ideal) w (ix3 b t c) = w (ix2 c 2) := by
  rw [val_main_v21_apply, val_main_v20_apply, val_main_v19_apply, val_main_v18_apply]
  refine congrArg w (funext fun a => ?_)
  match a with
  | ⟨0, _⟩ => exact Fin.ext (Nat.div_one _)
  | ⟨1, _⟩ => exact Fin.ext rfl

/-- Column 3 of the taps laid along the channels, at any batch and time, is the tap's weight for the channel. -/
theorem weight3 (w : FVec Ideal S2048x4 .f32) (b : Fin 4) (t : Fin 4096) (c : Fin 2048) :
    val_main_v28 (F := Ideal) w (ix3 b t c) = w (ix2 c 3) := by
  rw [val_main_v28_apply, val_main_v27_apply, val_main_v26_apply, val_main_v25_apply]
  refine congrArg w (funext fun a => ?_)
  match a with
  | ⟨0, _⟩ => exact Fin.ext (Nat.div_one _)
  | ⟨1, _⟩ => exact Fin.ext rfl

/-- The bias laid along the channels, at any batch and time, is the channel's bias. -/
theorem biasAt (β : FVec Ideal S2048 .f32) (b : Fin 4) (t : Fin 4096) (c : Fin 2048) :
    val_main_v8 (F := Ideal) β (ix3 b t c) = β (ix1 c) := by
  rw [val_main_v8_apply, val_main_v7_apply]
  refine congrArg β (funext fun a => ?_)
  match a with
  | ⟨0, _⟩ => exact Fin.ext rfl

/-- What the reference feeds to SiLU is the specification's convolution with its bias. -/
theorem preact_eq (x : FVec Ideal S4x4096x2048 .f32) (w : FVec Ideal S2048x4 .f32) (β : FVec Ideal S2048 .f32)
    (b : Fin 4) (t : Fin 4096) (c : Fin 2048) :
    val_main_v30 (F := Ideal) x w β (ix3 b t c) = preact x w β b t c := by
  rw [val_main_v30_apply, val_main_v23_apply, val_main_v16_apply, val_main_v9_apply,
    val_main_v29_apply, val_main_v22_apply, val_main_v15_apply, val_main_v6_apply,
    window0, window1, window2, window3, weight0, weight1, weight2, weight3, biasAt]
  exact bias_first _ _ _ _ _

/-- The reference's result array is the specification. -/
theorem reference_eq (x : FVec Ideal S4x4096x2048 .f32) (w : FVec Ideal S2048x4 .f32) (β : FVec Ideal S2048 .f32) :
    val_main_v31 (F := Ideal) x w β = convSilu x w β := by
  funext j
  obtain ⟨b, t, c, rfl⟩ : ∃ (b : Fin 4) (t : Fin 4096) (c : Fin 2048), j = ix3 b t c := ⟨j 0, j 1, j 2, eq_ix3 j⟩
  rw [convSilu_apply, val_main_v31_apply, val_main_call1_v5_apply, val_main_call1_v4_apply, val_main_call1_cst_0_apply,
    val_main_call1_v3_apply, val_main_call1_v2_apply, val_main_call1_cst_apply, val_main_call1_v1_apply,
    val_main_call1_v0_apply, preact_eq]
  exact congrArg (preact x w β b t c * ·) (logistic_expanded _)

end Cert.CausalConv.Reference

end
-- ==== Proof.lean ====
/-
  A causal depthwise convolution along time with four taps, followed by SiLU, over an input of 4 batches, 4096
  times and 2048 channels:

      y b t c = x⁰ b (t-3) c · w c 0 + x⁰ b (t-2) c · w c 1 + x⁰ b (t-1) c · w c 2 + x⁰ b t c · w c 3 + β c,
      out b t c = y b t c · σ (y b t c),      σ y = 1 / (1 + e^(-y)),

  with x⁰ the input extended by zero to negative times.

  The reference pads the time axis with three zero rows, multiplies four shifted windows of the padded array by
  the taps' columns, adds them onto the bias, and spells σ out with a negation, an exponential, an addition and a
  division.  The kernel walks the time axis in tiles of 512 rows, one batch after another.  It keeps the last
  eight rows of each tile for the next one, resetting them to zero at a batch's first tile, so that it never pads:
  tap k of row p of a tile reads row 5 + k + p of a 520-row window made of the eight kept rows and the tile.  It
  adds the taps first and the bias last, and applies the logistic function as one operation.

  Over the extended reals the two are the same function of the arguments.  The rows the kernel keeps are the
  rows the reference's padding and shifting reach: zeros before time 0, the tile before's last rows otherwise.
  The two orders of the five-term sum agree because addition is commutative and associative, at the infinities
  too.  The logistic operation is, by definition, the expression the reference spells.  No finiteness of the
  inputs is used; the precondition is never opened.

  The kernel's and the reference's runs are read off the generated frame, value leg, run and read modules; what is
  written by hand is the specification, that each side's result is the specification, and this assembly.
-/
import proofs.«402709_j62242666053983_3_alg».proof.Defs
import proofs.«402709_j62242666053983_3_alg».proof.Proof.Gen.Kernel
import proofs.«402709_j62242666053983_3_alg».proof.Proof.Gen.Kernel.Skeleton
import proofs.«402709_j62242666053983_3_alg».proof.Proof.Gen.Kernel.Launch
import proofs.«402709_j62242666053983_3_alg».proof.Proof.Gen.Kernel.Points
import proofs.«402709_j62242666053983_3_alg».proof.Proof.Gen.Kernel.Frame
import proofs.«402709_j62242666053983_3_alg».proof.Proof.Gen.KernelIdeal
import proofs.«402709_j62242666053983_3_alg».proof.Proof.Gen.KernelIdeal.Skeleton
import proofs.«402709_j62242666053983_3_alg».proof.Proof.Gen.KernelIdeal.Launch
import proofs.«402709_j62242666053983_3_alg».proof.Proof.Gen.KernelIdeal.Points
import proofs.«402709_j62242666053983_3_alg».proof.Proof.Gen.KernelIdeal.Frame
import proofs.«402709_j62242666053983_3_alg».proof.Proof.Gen.ReferenceIdeal
import proofs.«402709_j62242666053983_3_alg».proof.Proof.Gen.KernelIdeal.Value
import proofs.«402709_j62242666053983_3_alg».proof.Proof.Gen.ReferenceIdeal.Run
import proofs.«402709_j62242666053983_3_alg».proof.Proof.Gen.ReferenceIdeal.Read
import proofs.«402709_j62242666053983_3_alg».proof.Proof.Gen.Pre_finite_inputs
import proofs.«402709_j62242666053983_3_alg».proof.Proof.KernelIsSpec
import proofs.«402709_j62242666053983_3_alg».proof.Proof.RefIsSpec
import Idealize.ShloMosaic.Adequacy
import Idealize.ShloMosaic.Init

noncomputable section

namespace Cert.Proof

open Idealize.ShloMosaic Idealize.ShloMosaic.TcCoe Idealize.SL.Sem Cert.CausalConv

/-- The kernel as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, the kernel ends with its output array at the specification of its
    arguments and the reference with its result at the specification of its own: the same array. -/
theorem algebraic : Cert.algebraic_KernelIdeal_ReferenceIdeal := by
  intro m ρ m' ρ' _ hagree
  refine ⟨_, Cert.CausalConv.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.CausalConv.Reference.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
